-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_v1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x32x4096x128 : Shape := ⟨4, ![8, 32, 4096, 128]⟩
abbrev S8x32x1x128 : Shape := ⟨4, ![8, 32, 1, 128]⟩
abbrev S_ : Shape := ⟨0, ![]⟩

class Facts : Prop where
  bcast_S_S8x32x4096x128 : S_.BroadcastsInDim S8x32x4096x128 (![] : Fin 0 → Fin S8x32x4096x128.rank)
  reducesTo_S8x32x4096x128_S_d0_1_2_3 : S8x32x4096x128.ReducesTo [0, 1, 2, 3] S_
  h_S_ : 0 < S_.numel
  bcast_S_S8x32x1x128 : S_.BroadcastsInDim S8x32x1x128 (![] : Fin 0 → Fin S8x32x1x128.rank)
  reducesTo_S8x32x1x128_S_d0_1_2_3 : S8x32x1x128.ReducesTo [0, 1, 2, 3] S_

variable [Facts]

def fn_part1 {F : FTy → Type} [FloatOps F] (main_v13 : IVec S_ 1) (main_v16 : IVec S8x32x1x128 1) : IVec S_ 1 :=
  let main_c_5 : IVec S_ 1 := constantI S_ 1 1#1
  let main_v17 : IVec S_ 1 := (fun x v => Host.reduce IntOp.andi x v reducesTo_S8x32x1x128_S_d0_1_2_3 h_S_) main_v16 main_c_5
  let main_v18 : IVec S_ 1 := andi main_v13 main_v17
  main_v18

def fn {F : FTy → Type} [FloatOps F] (main_arg0 : FVec F S8x32x4096x128 .f32) (main_arg1 : FVec F S8x32x4096x128 .f32) (main_arg2 : FVec F S8x32x1x128 .f32) (main_arg3 : FVec F S8x32x1x128 .f32) : IVec S_ 1 :=
  let main_v0 : FVec F S8x32x4096x128 .f32 := Host.absf main_arg0
  let main_cst : FVec F S_ .f32 := constant S_ .f32 0x7F800000#32
  let main_v1 : FVec F S8x32x4096x128 .f32 := broadcastInDim S8x32x4096x128 ![] bcast_S_S8x32x4096x128 main_cst
  let main_v2 : IVec S8x32x4096x128 1 := cmpf .olt main_v0 main_v1
  let main_c : IVec S_ 1 := constantI S_ 1 1#1
  let main_v3 : IVec S_ 1 := (fun x v => Host.reduce IntOp.andi x v reducesTo_S8x32x4096x128_S_d0_1_2_3 h_S_) main_v2 main_c
  let main_v4 : FVec F S8x32x4096x128 .f32 := Host.absf main_arg1
  let main_cst_0 : FVec F S_ .f32 := constant S_ .f32 0x7F800000#32
  let main_v5 : FVec F S8x32x4096x128 .f32 := broadcastInDim S8x32x4096x128 ![] bcast_S_S8x32x4096x128 main_cst_0
  let main_v6 : IVec S8x32x4096x128 1 := cmpf .olt main_v4 main_v5
  let main_c_1 : IVec S_ 1 := constantI S_ 1 1#1
  let main_v7 : IVec S_ 1 := (fun x v => Host.reduce IntOp.andi x v reducesTo_S8x32x4096x128_S_d0_1_2_3 h_S_) main_v6 main_c_1
  let main_v8 : IVec S_ 1 := andi main_v3 main_v7
  let main_v9 : FVec F S8x32x1x128 .f32 := Host.absf main_arg2
  let main_cst_2 : FVec F S_ .f32 := constant S_ .f32 0x7F800000#32
  let main_v10 : FVec F S8x32x1x128 .f32 := broadcastInDim S8x32x1x128 ![] bcast_S_S8x32x1x128 main_cst_2
  let main_v11 : IVec S8x32x1x128 1 := cmpf .olt main_v9 main_v10
  let main_c_3 : IVec S_ 1 := constantI S_ 1 1#1
  let main_v12 : IVec S_ 1 := (fun x v => Host.reduce IntOp.andi x v reducesTo_S8x32x1x128_S_d0_1_2_3 h_S_) main_v11 main_c_3
  let main_v13 : IVec S_ 1 := andi main_v8 main_v12
  let main_v14 : FVec F S8x32x1x128 .f32 := Host.absf main_arg3
  let main_cst_4 : FVec F S_ .f32 := constant S_ .f32 0x7F800000#32
  let main_v15 : FVec F S8x32x1x128 .f32 := broadcastInDim S8x32x1x128 ![] bcast_S_S8x32x1x128 main_cst_4
  let main_v16 : IVec S8x32x1x128 1 := cmpf .olt main_v14 main_v15
  fn_part1 (F := F) main_v13 main_v16
-- ==== Kernel.lean ====
abbrev S8x32x4096x128 : Shape := ⟨4, ![8, 32, 4096, 128]⟩
abbrev S8x32x1x128 : Shape := ⟨4, ![8, 32, 1, 128]⟩
abbrev S8x32x4097x128 : Shape := ⟨4, ![8, 32, 4097, 128]⟩
abbrev S1x1x4096x128 : Shape := ⟨4, ![1, 1, 4096, 128]⟩
abbrev S1x1x1x128 : Shape := ⟨4, ![1, 1, 1, 128]⟩
abbrev S1x1x4097x128 : Shape := ⟨4, ![1, 1, 4097, 128]⟩
abbrev S4096x128 : Shape := ⟨2, ![4096, 128]⟩
abbrev S1x128 : Shape := ⟨2, ![1, 128]⟩

abbrev nBuf : Space → Nat
  | .hbm => 6
  | .vmem => 12
  | .smem => 0
  | _ => 0

abbrev bufTy : (tb : Table) → Fin (tcTables nBuf tb) → BufTy
  | .hbm, ⟨0, _⟩ => ⟨S8x32x4096x128, .f32⟩
  | .hbm, ⟨1, _⟩ => ⟨S8x32x4096x128, .f32⟩
  | .hbm, ⟨2, _⟩ => ⟨S8x32x1x128, .f32⟩
  | .hbm, ⟨3, _⟩ => ⟨S8x32x1x128, .f32⟩
  | .hbm, ⟨4, _⟩ => ⟨S8x32x4097x128, .f32⟩
  | .hbm, ⟨5, _⟩ => ⟨S8x32x4097x128, .f32⟩
  | .local _ .vmem, ⟨0, _⟩ => ⟨S1x1x4096x128, .f32⟩
  | .local _ .vmem, ⟨1, _⟩ => ⟨S1x1x4096x128, .f32⟩
  | .local _ .vmem, ⟨2, _⟩ => ⟨S1x1x4096x128, .f32⟩
  | .local _ .vmem, ⟨3, _⟩ => ⟨S1x1x4096x128, .f32⟩
  | .local _ .vmem, ⟨4, _⟩ => ⟨S1x1x1x128, .f32⟩
  | .local _ .vmem, ⟨5, _⟩ => ⟨S1x1x1x128, .f32⟩
  | .local _ .vmem, ⟨6, _⟩ => ⟨S1x1x1x128, .f32⟩
  | .local _ .vmem, ⟨7, _⟩ => ⟨S1x1x1x128, .f32⟩
  | .local _ .vmem, ⟨8, _⟩ => ⟨S1x1x4097x128, .f32⟩
  | .local _ .vmem, ⟨9, _⟩ => ⟨S1x1x4097x128, .f32⟩
  | .local _ .vmem, ⟨10, _⟩ => ⟨S1x1x4097x128, .f32⟩
  | .local _ .vmem, ⟨11, _⟩ => ⟨S1x1x4097x128, .f32⟩
  | _, _ => ⟨S8x32x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 32], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x4097x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x4097x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  inb_S1x1x4096x128_S1x1x4096x128_0_0_0_0 : ∀ a, (![0, 0, 0, 0] : Fin 4 → Nat) a + S1x1x4096x128.size a ≤ S1x1x4096x128.size a
  h_S1x1x4096x128 : 0 < S1x1x4096x128.numel
  shapeCasts_S1x1x4096x128_S4096x128 : S1x1x4096x128.ShapeCasts S4096x128
  inb_S1x1x4097x128_S1x1x4096x128_0_0_0_0 : ∀ a, (![0, 0, 0, 0] : Fin 4 → Nat) a + S1x1x4096x128.size a ≤ S1x1x4097x128.size a
  shapeCasts_S4096x128_S1x1x4096x128 : S4096x128.ShapeCasts S1x1x4096x128
  inb_S1x1x1x128_S1x1x1x128_0_0_0_0 : ∀ a, (![0, 0, 0, 0] : Fin 4 → Nat) a + S1x1x1x128.size a ≤ S1x1x1x128.size a
  h_S1x1x1x128 : 0 < S1x1x1x128.numel
  shapeCasts_S1x1x1x128_S1x128 : S1x1x1x128.ShapeCasts S1x128
  inb_S1x1x4097x128_S1x1x1x128_0_0_4096_0 : ∀ a, (![0, 0, 4096, 0] : Fin 4 → Nat) a + S1x1x1x128.size a ≤ S1x1x4097x128.size a
  shapeCasts_S1x128_S1x1x1x128 : S1x128.ShapeCasts S1x1x1x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x4096x128.size a ≤ S8x32x4096x128.size a
  hwx0_0 : ∀ i : grid0.Coords, EltTy.bits .f32 = 32 ∨ (Rect.block (s := S8x32x4096x128) S1x1x4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x4096x128.size a ≤ S8x32x4096x128.size a
  hwx0_1 : ∀ i : grid0.Coords, EltTy.bits .f32 = 32 ∨ (Rect.block (s := S8x32x4096x128) S1x1x4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1x128.size a ≤ S8x32x1x128.size a
  hwx0_2 : ∀ i : grid0.Coords, EltTy.bits .f32 = 32 ∨ (Rect.block (s := S8x32x1x128) S1x1x1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1x128.size a ≤ S8x32x1x128.size a
  hwx0_3 : ∀ i : grid0.Coords, EltTy.bits .f32 = 32 ∨ (Rect.block (s := S8x32x1x128) S1x1x1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x4097x128.size a ≤ S8x32x4097x128.size a
  hwx0_4 : ∀ i : grid0.Coords, EltTy.bits .f32 = 32 ∨ (Rect.block (s := S8x32x4097x128) S1x1x4097x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x4097x128.size a ≤ S8x32x4097x128.size a
  hwx0_5 : ∀ i : grid0.Coords, EltTy.bits .f32 = 32 ∨ (Rect.block (s := S8x32x4097x128) S1x1x4097x128.size (cc0_transform_5 i) (hinb0_5 i)).WholeWords (EltTy.packing .f32)

variable [Facts₀]

abbrev win0_0 : Pipeline.Window sig grid0 :=
  Pipeline.Window.ofSpec (Memref.whole main_arg0) S1x1x4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x1x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1x1x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1x1x4097x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1x1x4097x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x32x4096x128 : Shape := ⟨4, ![8, 32, 4096, 128]⟩
abbrev S8x32x1x128 : Shape := ⟨4, ![8, 32, 1, 128]⟩
abbrev S8x32x4097x128 : Shape := ⟨4, ![8, 32, 4097, 128]⟩

abbrev nBuf : Space → Nat
  | .hbm => 6
  | .vmem => 0
  | .smem => 0
  | _ => 0

abbrev bufTy : (tb : Table) → Fin (tcTables nBuf tb) → BufTy
  | .hbm, ⟨0, _⟩ => ⟨S8x32x4096x128, .f32⟩
  | .hbm, ⟨1, _⟩ => ⟨S8x32x4096x128, .f32⟩
  | .hbm, ⟨2, _⟩ => ⟨S8x32x1x128, .f32⟩
  | .hbm, ⟨3, _⟩ => ⟨S8x32x1x128, .f32⟩
  | .hbm, ⟨4, _⟩ => ⟨S8x32x4097x128, .f32⟩
  | .hbm, ⟨5, _⟩ => ⟨S8x32x4097x128, .f32⟩
  | _, _ => ⟨S8x32x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩

abbrev nD : Nat := 1
abbrev τ : Topo := Topo.v7x

variable {F : FTy → Type} [FloatOps F]

class Facts₀ : Prop where
  concatenates_S8x32x4096x128_S8x32x1x128_S8x32x4097x128_d2 : Shape.Concatenates [S8x32x4096x128, S8x32x1x128] S8x32x4097x128 2

variable [Facts₀]

class Facts : Prop extends Facts₀ where

variable [Facts]
-- ==== Proof.Appended.lean ====
/-
  The specification: a cache of 4096 rows with one fresh row appended along the sequence axis.

  Over any element type, `appended x y` is the array of shape [8, 32, 4097, 128] whose entry at (b, h, s, d) is
  `x (b, h, s, d)` for `s < 4096` and `y (b, h, 0, d)` at the last row `s = 4096`. The concatenation of the two
  arrays along axis 2 is this function, index by index: a row below 4096 falls in the first piece at the same
  coordinates, the row 4096 in the second piece at row 0.
-/
import Idealize.ShloMosaic.Lib.ValueIdx
import Idealize.ShloMosaic.Lib.Pipeline.Value

noncomputable section

namespace Cert.Appended

open Idealize.ShloMosaic Idealize.ShloMosaic.ValueIdx

/-- The cache: batch 8, heads 32, 4096 rows, 128 lanes. -/
abbrev Cache : Shape := ⟨4, ![8, 32, 4096, 128]⟩
/-- The fresh state: one row per batch and head. -/
abbrev Fresh : Shape := ⟨4, ![8, 32, 1, 128]⟩
/-- The grown cache: 4097 rows. -/
abbrev Grown : Shape := ⟨4, ![8, 32, 4097, 128]⟩

variable {α : Type}

/-- The cache with the fresh row appended: rows below 4096 are the cache's, row 4096 is the fresh row. -/
def appended (x : Cache.Idx → α) (y : Fresh.Idx → α) : Grown.Idx → α :=
  fun j => if h : (j 2).val < 4096 then x (ix4 (j 0) (j 1) ⟨(j 2).val, h⟩ (j 3)) else y (ix4 (j 0) (j 1) 0 (j 3))

/-- At a row below 4096 the appended array is the cache at the same coordinates. -/
theorem appended_cache (x : Cache.Idx → α) (y : Fresh.Idx → α) (j : Grown.Idx) (hs : (j 2).val < 4096) :
    appended x y j = x (ix4 (j 0) (j 1) ⟨(j 2).val, hs⟩ (j 3)) := dif_pos hs

/-- At row 4096 the appended array is the fresh row. -/
theorem appended_fresh (x : Cache.Idx → α) (y : Fresh.Idx → α) (j : Grown.Idx) (hs : ¬ (j 2).val < 4096) :
    appended x y j = y (ix4 (j 0) (j 1) 0 (j 3)) := dif_neg hs

/-- The two-piece concatenation along the row axis is the appended array. -/
theorem concatenate_eq (x : Cache.Idx → α) (y : Fresh.Idx → α) (hc : Shape.Concatenates [Cache, Fresh] Grown 2) :
    concatenate Grown 2 [⟨Cache, x⟩, ⟨Fresh, y⟩] hc = appended x y := by
  funext j
  unfold appended
  split
  · next hlt =>
    exact concatenate_pair_apply_left 2 x y hc j rfl _ (fun b => by
      match b with
      | ⟨0, _⟩ => rfl
      | ⟨1, _⟩ => rfl
      | ⟨2, _⟩ => rfl
      | ⟨3, _⟩ => rfl)
  · next hge =>
    have hj : (j 2).val < 4097 := (j 2).isLt
    exact concatenate_pair_apply_right 2 x y hc j rfl rfl _
      (fun b hb => by
        match b with
        | ⟨0, _⟩ => rfl
        | ⟨1, _⟩ => rfl
        | ⟨2, _⟩ => exact absurd rfl hb
        | ⟨3, _⟩ => rfl)
      (by show (0 : Nat) + 4096 = (j 2).val; omega)

end Cert.Appended

end
-- ==== Proof.KernelRows.lean ====
/-
  The kernel's two output arrays are the caches with the fresh rows appended.

  The grid has one point per (batch, head) pair. At a point the body copies the cache block's 4096 rows into rows
  0 … 4095 of the output block and the fresh row into row 4096, once for the keys and once for the values; each copy
  passes through a change of shape and back, which is the identity on the values. So what a point leaves in an output
  block is the `slab` of its two input blocks: the cache block's rows, then the fresh row. The two stores cover the
  block and each agrees with the slab where it lands, so the block holds the slab whatever it held before (the body's
  reads of the output block are never used).

  The cache window, the fresh-row window and the output window of a point all sit at the same (batch, head) block and
  at block 0 along rows and lanes, so the slab of the point's input blocks is block (batch, head) of the whole cache
  with the whole fresh array appended along the row axis. The 256 blocks cover the output array: an index (b, h, s, d)
  lies in the block of the point for (b, h). Hence each output array ends at the appended array.
-/
import proofs.«116161_j45294725104260_1_alg».proof.Proof.Gen.KernelIdeal.Value
import proofs.«116161_j45294725104260_1_alg».proof.Proof.Appended

set_option maxRecDepth 16384

noncomputable section

namespace Cert.KernelIdeal.Rows

open Cert.KernelIdeal Cert.KernelIdeal.Gen Idealize.ShloMosaic Idealize.ShloMosaic.TcCoe Idealize.SL.Sem
open Idealize.ShloMosaic.ValueIdx Idealize.ShloMosaic.Tactic
open Idealize.ShloMosaic.Pipeline (Dat)
open Cert.Appended (appended appended_cache appended_fresh)

variable {F : FTy → Type} [FloatOps F]

/-- One (batch, head) slab of the grown cache: the cache block's 4096 rows, then the fresh row. -/
def slab (x : Vec F S1x1x4096x128 .f32) (y : Vec F S1x1x1x128 .f32) : Vec F S1x1x4097x128 .f32 :=
  fun j => if h : (j 2).val < 4096 then x (ix4 (j 0) (j 1) ⟨(j 2).val, h⟩ (j 3)) else y (ix4 (j 0) (j 1) 0 (j 3))

theorem slab_cache (x : Vec F S1x1x4096x128 .f32) (y : Vec F S1x1x1x128 .f32) (j : S1x1x4097x128.Idx)
    (h : (j 2).val < 4096) : slab x y j = x (ix4 (j 0) (j 1) ⟨(j 2).val, h⟩ (j 3)) := dif_pos h

theorem slab_fresh (x : Vec F S1x1x4096x128 .f32) (y : Vec F S1x1x1x128 .f32) (j : S1x1x4097x128.Idx)
    (h : ¬ (j 2).val < 4096) : slab x y j = y (ix4 (j 0) (j 1) 0 (j 3)) := dif_neg h

theorem hz : (![0, 0, 0, 0] : Fin 4 → Nat) = fun _ => 0 := funext fun a => by fin_cases a <;> rfl

/-- The body's two stores into an output block, the fresh row at row 4096 and the cache block at row 0, each hold the
    slab at the indices they cover. -/
theorem stores_slab (x : Vec F S1x1x4096x128 .f32) (y : Vec F S1x1x1x128 .f32)
    (inbY : ∀ a, (![0, 0, 4096, 0] : Fin 4 → Nat) a + S1x1x1x128.size a ≤ S1x1x4097x128.size a)
    (inbX : ∀ a, (![0, 0, 0, 0] : Fin 4 → Nat) a + S1x1x4096x128.size a ≤ S1x1x4097x128.size a) :
    ∀ p ∈ [(⟨Rect.unit (s := S1x1x4097x128) ![0, 0, 4096, 0] S1x1x1x128.size inbY, y⟩ : View.Piece (Elt F) S1x1x4097x128 .f32),
        ⟨Rect.unit (s := S1x1x4097x128) ![0, 0, 0, 0] S1x1x4096x128.size inbX, x⟩],
      ∀ z : p.1.shape.Idx, p.2 z = slab x y (p.1.emb z) := by
  intro p hp
  simp only [List.mem_cons, List.not_mem_nil, or_false] at hp
  rcases hp with rfl | rfl
  · intro z
    have hz2 : (z 2).val < 1 := (z 2).isLt
    rw [slab_fresh x y _ (by show ¬ (4096 + 1 * (z 2).val < 4096); omega)]
    refine congrArg y (funext fun a => Fin.ext ?_)
    match a with
    | ⟨0, _⟩ => show (z 0).val = 0 + 1 * (z 0).val; omega
    | ⟨1, _⟩ => show (z 1).val = 0 + 1 * (z 1).val; omega
    | ⟨2, _⟩ => show (z 2).val = 0; omega
    | ⟨3, _⟩ => show (z 3).val = 0 + 1 * (z 3).val; omega
  · intro z
    have hz2 : (z 2).val < 4096 := (z 2).isLt
    rw [slab_cache x y _ (by show 0 + 1 * (z 2).val < 4096; omega)]
    refine congrArg x (funext fun a => Fin.ext ?_)
    match a with
    | ⟨0, _⟩ => show (z 0).val = 0 + 1 * (z 0).val; omega
    | ⟨1, _⟩ => show (z 1).val = 0 + 1 * (z 1).val; omega
    | ⟨2, _⟩ => show (z 2).val = 0 + 1 * (z 2).val; omega
    | ⟨3, _⟩ => show (z 3).val = 0 + 1 * (z 3).val; omega

theorem pay1_eq (v : Vec F S1x1x4096x128 .f32) : k0_pay1 v = v := by
  unfold k0_pay1; exact shapeCast_shapeCast _ _ _
theorem pay2_eq (v : Vec F S1x1x1x128 .f32) : k0_pay2 v = v := by
  unfold k0_pay2; exact shapeCast_shapeCast _ _ _
theorem pay3_eq (v : Vec F S1x1x4096x128 .f32) : k0_pay3 v = v := by
  unfold k0_pay3; exact shapeCast_shapeCast _ _ _
theorem pay4_eq (v : Vec F S1x1x1x128 .f32) : k0_pay4 v = v := by
  unfold k0_pay4; exact shapeCast_shapeCast _ _ _

/-- What the body leaves in the key output's block: the slab of its key blocks. -/
theorem out4_eq (c : Dev nD) (i : grid0.Coords) (arg2 : Memref sig .tc .vmem S1x1x4096x128 .f32) (harg2 : arg2.IsWhole) (arg3 : Memref sig .tc .vmem S1x1x4096x128 .f32) (harg3 : arg3.IsWhole) (arg4 : Memref sig .tc .vmem S1x1x1x128 .f32) (harg4 : arg4.IsWhole) (arg5 : Memref sig .tc .vmem S1x1x1x128 .f32) (harg5 : arg5.IsWhole) (arg6 : Memref sig .tc .vmem S1x1x4097x128 .f32) (harg6 : arg6.IsWhole) (arg7 : Memref sig .tc .vmem S1x1x4097x128 .f32) (harg7 : arg7.IsWhole)
    (x0 : Vec F S1x1x4096x128 .f32) (x1 : Vec F S1x1x4096x128 .f32) (x2 : Vec F S1x1x1x128 .f32) (x3 : Vec F S1x1x1x128 .f32) :
    out0_A_4 c i arg2 harg2 arg3 harg3 arg4 harg4 arg5 harg5 arg6 harg6 arg7 harg7 x0 x1 x2 x3 = slab x0 x2 := by
  unfold out0_A_4
  rw [View.read_writes_eq_canon _ _ _ (cover0_A_4 c i arg2 harg2 arg3 harg3 arg4 harg4 arg5 harg5 arg6 harg6 arg7 harg7 x0 x1 x2 x3)]
  funext y
  refine View.canon_apply_of_pieces (slab x0 x2) _ ?_ y (cover0_A_4 c i arg2 harg2 arg3 harg3 arg4 harg4 arg5 harg5 arg6 harg6 arg7 harg7 x0 x1 x2 x3 y)
  unfold kernelRun0_A
  dsimp only
  sl_unfold_words
  simp only [View.readAt_eq_ld, harg2.read_unread, harg4.read_unread, View.ld_unit_zero (S := S1x1x4096x128) hz,
    View.ld_unit_zero (S := S1x1x1x128) hz, pay1_eq, pay2_eq]
  exact stores_slab x0 x2 _ _

/-- What the body leaves in the value output's block: the slab of its value blocks. -/
theorem out5_eq (c : Dev nD) (i : grid0.Coords) (arg2 : Memref sig .tc .vmem S1x1x4096x128 .f32) (harg2 : arg2.IsWhole) (arg3 : Memref sig .tc .vmem S1x1x4096x128 .f32) (harg3 : arg3.IsWhole) (arg4 : Memref sig .tc .vmem S1x1x1x128 .f32) (harg4 : arg4.IsWhole) (arg5 : Memref sig .tc .vmem S1x1x1x128 .f32) (harg5 : arg5.IsWhole) (arg6 : Memref sig .tc .vmem S1x1x4097x128 .f32) (harg6 : arg6.IsWhole) (arg7 : Memref sig .tc .vmem S1x1x4097x128 .f32) (harg7 : arg7.IsWhole)
    (x0 : Vec F S1x1x4096x128 .f32) (x1 : Vec F S1x1x4096x128 .f32) (x2 : Vec F S1x1x1x128 .f32) (x3 : Vec F S1x1x1x128 .f32) :
    out0_A_5 c i arg2 harg2 arg3 harg3 arg4 harg4 arg5 harg5 arg6 harg6 arg7 harg7 x0 x1 x2 x3 = slab x1 x3 := by
  unfold out0_A_5
  rw [View.read_writes_eq_canon _ _ _ (cover0_A_5 c i arg2 harg2 arg3 harg3 arg4 harg4 arg5 harg5 arg6 harg6 arg7 harg7 x0 x1 x2 x3)]
  funext y
  refine View.canon_apply_of_pieces (slab x1 x3) _ ?_ y (cover0_A_5 c i arg2 harg2 arg3 harg3 arg4 harg4 arg5 harg5 arg6 harg6 arg7 harg7 x0 x1 x2 x3 y)
  unfold kernelRun0_A
  dsimp only
  sl_unfold_words
  simp only [View.readAt_eq_ld, harg3.read_unread, harg5.read_unread, View.ld_unit_zero (S := S1x1x4096x128) hz,
    View.ld_unit_zero (S := S1x1x1x128) hz, pay3_eq, pay4_eq]
  exact stores_slab x1 x3 _ _

variable (m : (ℓ : Loc nD τ sig) → Buf (Elt F) ℓ) (ρ : Dev nD → PrngReg)

/-! ## Output window 4: the keys -/

/-- The printed index maps over the 256 grid points: the keys' cache window, fresh-row window and output window sit at
    the same (batch, head) block and at block 0 on the row and lane axes. -/
theorem idx_facts4 : ∀ t : Fin cfg0.N,
    win0_0.index t (0 : Fin 4) = win0_4.index t (0 : Fin 4) ∧ win0_0.index t (1 : Fin 4) = win0_4.index t (1 : Fin 4)
    ∧ win0_0.index t (2 : Fin 4) = 0 ∧ win0_0.index t (3 : Fin 4) = 0
    ∧ win0_2.index t (0 : Fin 4) = win0_4.index t (0 : Fin 4) ∧ win0_2.index t (1 : Fin 4) = win0_4.index t (1 : Fin 4)
    ∧ win0_2.index t (2 : Fin 4) = 0 ∧ win0_2.index t (3 : Fin 4) = 0
    ∧ win0_4.index t (2 : Fin 4) = 0 ∧ win0_4.index t (3 : Fin 4) = 0 :=
  (by decide +kernel : ∀ t : Fin grid0.N, _)

/-- Every (batch, head) pair is some grid point's block. -/
theorem idx_onto4 : ∀ (b : Fin 8) (h : Fin 32), ∃ t : Fin cfg0.N, win0_4.index t = ![b.val, h.val, 0, 0] :=
  (by decide +kernel : ∀ (b : Fin 8) (h : Fin 32), ∃ t : Fin grid0.N, win0_4.index t = ![b.val, h.val, 0, 0])

/-- What point `t` writes back is block `t` of the keys cache with the fresh row appended. -/
theorem flushed4_eq (c : Dev nD) (t : Fin cfg0.N) :
    (dats m 0 c).flushed 4 t
      = ((cfg0.win 4).blk t).view.read (Elt F) (appended (α := Elt F .f32) (V m c main_arg0) (V m c main_arg2)) := by
  rw [Value.flushed4_A]
  refine (congrArg ((cfg0.win 4).cut (grid0.coords t))
    (out4_eq c (grid0.coords t) (ms0_0 t) (hs0_0 t) (ms0_1 t) (hs0_1 t) (ms0_2 t) (hs0_2 t) (ms0_3 t) (hs0_3 t)
      (ms0_4 t) (hs0_4 t) (ms0_5 t) (hs0_5 t) (iblk m c 0 t) (iblk m c 1 t) (iblk m c 2 t) (iblk m c 3 t))).trans ?_
  obtain ⟨e0, e1, e2, e3, f0, f1, f2, f3, g2, g3⟩ := idx_facts4 t
  funext j
  show slab (iblk m c 0 t) (iblk m c 2 t) j
    = appended (α := Elt F .f32) (V m c main_arg0) (V m c main_arg2) (((cfg0.win 4).blk t).view.emb j)
  have hj2 : (j 2).val < 4097 := (j 2).isLt
  by_cases hj : (j 2).val < 4096
  · rw [slab_cache _ _ _ hj,
      appended_cache _ _ _ (by show win0_4.index t (2 : Fin 4) * 4097 + 1 * (j 2).val < 4096; omega)]
    show V m c main_arg0 (((cfg0.win 0).blk t).view.emb (ix4 (j 0) (j 1) ⟨(j 2).val, hj⟩ (j 3))) = _
    refine congrArg (V m c main_arg0) (funext fun a => Fin.ext ?_)
    match a with
    | ⟨0, _⟩ => show win0_0.index t (0 : Fin 4) * 1 + 1 * (j 0).val = win0_4.index t (0 : Fin 4) * 1 + 1 * (j 0).val; omega
    | ⟨1, _⟩ => show win0_0.index t (1 : Fin 4) * 1 + 1 * (j 1).val = win0_4.index t (1 : Fin 4) * 1 + 1 * (j 1).val; omega
    | ⟨2, _⟩ => show win0_0.index t (2 : Fin 4) * 4096 + 1 * (j 2).val = win0_4.index t (2 : Fin 4) * 4097 + 1 * (j 2).val; omega
    | ⟨3, _⟩ => show win0_0.index t (3 : Fin 4) * 128 + 1 * (j 3).val = win0_4.index t (3 : Fin 4) * 128 + 1 * (j 3).val; omega
  · rw [slab_fresh _ _ _ hj,
      appended_fresh _ _ _ (by show ¬ (win0_4.index t (2 : Fin 4) * 4097 + 1 * (j 2).val < 4096); omega)]
    show V m c main_arg2 (((cfg0.win 2).blk t).view.emb (ix4 (j 0) (j 1) 0 (j 3))) = _
    refine congrArg (V m c main_arg2) (funext fun a => Fin.ext ?_)
    match a with
    | ⟨0, _⟩ => show win0_2.index t (0 : Fin 4) * 1 + 1 * (j 0).val = win0_4.index t (0 : Fin 4) * 1 + 1 * (j 0).val; omega
    | ⟨1, _⟩ => show win0_2.index t (1 : Fin 4) * 1 + 1 * (j 1).val = win0_4.index t (1 : Fin 4) * 1 + 1 * (j 1).val; omega
    | ⟨2, _⟩ => show win0_2.index t (2 : Fin 4) * 1 + 1 * 0 = 0; omega
    | ⟨3, _⟩ => show win0_2.index t (3 : Fin 4) * 128 + 1 * (j 3).val = win0_4.index t (3 : Fin 4) * 128 + 1 * (j 3).val; omega

/-- An index of the output array is in point `t`'s block iff each coordinate is in the block's range on its axis. -/
theorem mem_blk4 (t : Fin cfg0.N) (i : S8x32x4097x128.Idx) :
    i ∈ ((cfg0.win 4).blk t).view.set
      ↔ ∀ a : Fin 4, win0_4.index t a * S1x1x4097x128.size a ≤ (i a).val
          ∧ (i a).val < win0_4.index t a * S1x1x4097x128.size a + S1x1x4097x128.size a := by
  show i ∈ ((View.whole main_v0_0).slice (win0_4.rect t)).set ↔ _
  rw [View.set_slice_whole, Rect.mem_set_unit]
  exact Iff.rfl

/-- Every index of the output array lies in the block of the grid point of its (batch, head) pair. -/
theorem cover4 (i : S8x32x4097x128.Idx) :
    ∃ t : Fin cfg0.N, (cfg0.win 4).flush t = true ∧ i ∈ ((cfg0.win 4).blk t).view.set := by
  have hi0 : (i 0).val < 8 := (i 0).isLt
  have hi1 : (i 1).val < 32 := (i 1).isLt
  have hi2 : (i 2).val < 4097 := (i 2).isLt
  have hi3 : (i 3).val < 128 := (i 3).isLt
  obtain ⟨t, ht⟩ := idx_onto4 ⟨(i 0).val, hi0⟩ ⟨(i 1).val, hi1⟩
  have q0 : win0_4.index t (0 : Fin 4) = (i 0).val := congrFun ht 0
  have q1 : win0_4.index t (1 : Fin 4) = (i 1).val := congrFun ht 1
  have q2 : win0_4.index t (2 : Fin 4) = 0 := congrFun ht 2
  have q3 : win0_4.index t (3 : Fin 4) = 0 := congrFun ht 3
  refine ⟨t, flush0_4 t, ?_⟩
  rw [mem_blk4]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 1 ≤ (i 1).val ∧ (i 1).val < win0_4.index t (1 : Fin 4) * 1 + 1; omega
  | ⟨2, _⟩ => show win0_4.index t (2 : Fin 4) * 4097 ≤ (i 2).val ∧ (i 2).val < win0_4.index t (2 : Fin 4) * 4097 + 4097; omega
  | ⟨3, _⟩ => show win0_4.index t (3 : Fin 4) * 128 ≤ (i 3).val ∧ (i 3).val < win0_4.index t (3 : Fin 4) * 128 + 128; omega

/-- After the run the keys output is the keys cache with the fresh row appended. -/
theorem final4 (c : Dev nD) :
    (dats m 0 c).arrAt 4 cfg0.N = appended (α := Elt F .f32) (V m c main_arg0) (V m c main_arg2) :=
  (dats m 0 c).arrAt_eq_of_cover 4 _ (fun t _ => flushed4_eq m c t) cover4

/-! ## Output window 5: the values -/

/-- The printed index maps over the 256 grid points: the values' cache window, fresh-row window and output window sit at
    the same (batch, head) block and at block 0 on the row and lane axes. -/
theorem idx_facts5 : ∀ t : Fin cfg0.N,
    win0_1.index t (0 : Fin 4) = win0_5.index t (0 : Fin 4) ∧ win0_1.index t (1 : Fin 4) = win0_5.index t (1 : Fin 4)
    ∧ win0_1.index t (2 : Fin 4) = 0 ∧ win0_1.index t (3 : Fin 4) = 0
    ∧ win0_3.index t (0 : Fin 4) = win0_5.index t (0 : Fin 4) ∧ win0_3.index t (1 : Fin 4) = win0_5.index t (1 : Fin 4)
    ∧ win0_3.index t (2 : Fin 4) = 0 ∧ win0_3.index t (3 : Fin 4) = 0
    ∧ win0_5.index t (2 : Fin 4) = 0 ∧ win0_5.index t (3 : Fin 4) = 0 :=
  (by decide +kernel : ∀ t : Fin grid0.N, _)

/-- Every (batch, head) pair is some grid point's block. -/
theorem idx_onto5 : ∀ (b : Fin 8) (h : Fin 32), ∃ t : Fin cfg0.N, win0_5.index t = ![b.val, h.val, 0, 0] :=
  (by decide +kernel : ∀ (b : Fin 8) (h : Fin 32), ∃ t : Fin grid0.N, win0_5.index t = ![b.val, h.val, 0, 0])

/-- What point `t` writes back is block `t` of the values cache with the fresh row appended. -/
theorem flushed5_eq (c : Dev nD) (t : Fin cfg0.N) :
    (dats m 0 c).flushed 5 t
      = ((cfg0.win 5).blk t).view.read (Elt F) (appended (α := Elt F .f32) (V m c main_arg1) (V m c main_arg3)) := by
  rw [Value.flushed5_A]
  refine (congrArg ((cfg0.win 5).cut (grid0.coords t))
    (out5_eq c (grid0.coords t) (ms0_0 t) (hs0_0 t) (ms0_1 t) (hs0_1 t) (ms0_2 t) (hs0_2 t) (ms0_3 t) (hs0_3 t)
      (ms0_4 t) (hs0_4 t) (ms0_5 t) (hs0_5 t) (iblk m c 0 t) (iblk m c 1 t) (iblk m c 2 t) (iblk m c 3 t))).trans ?_
  obtain ⟨e0, e1, e2, e3, f0, f1, f2, f3, g2, g3⟩ := idx_facts5 t
  funext j
  show slab (iblk m c 1 t) (iblk m c 3 t) j
    = appended (α := Elt F .f32) (V m c main_arg1) (V m c main_arg3) (((cfg0.win 5).blk t).view.emb j)
  have hj2 : (j 2).val < 4097 := (j 2).isLt
  by_cases hj : (j 2).val < 4096
  · rw [slab_cache _ _ _ hj,
      appended_cache _ _ _ (by show win0_5.index t (2 : Fin 4) * 4097 + 1 * (j 2).val < 4096; omega)]
    show V m c main_arg1 (((cfg0.win 1).blk t).view.emb (ix4 (j 0) (j 1) ⟨(j 2).val, hj⟩ (j 3))) = _
    refine congrArg (V m c main_arg1) (funext fun a => Fin.ext ?_)
    match a with
    | ⟨0, _⟩ => show win0_1.index t (0 : Fin 4) * 1 + 1 * (j 0).val = win0_5.index t (0 : Fin 4) * 1 + 1 * (j 0).val; omega
    | ⟨1, _⟩ => show win0_1.index t (1 : Fin 4) * 1 + 1 * (j 1).val = win0_5.index t (1 : Fin 4) * 1 + 1 * (j 1).val; omega
    | ⟨2, _⟩ => show win0_1.index t (2 : Fin 4) * 4096 + 1 * (j 2).val = win0_5.index t (2 : Fin 4) * 4097 + 1 * (j 2).val; omega
    | ⟨3, _⟩ => show win0_1.index t (3 : Fin 4) * 128 + 1 * (j 3).val = win0_5.index t (3 : Fin 4) * 128 + 1 * (j 3).val; omega
  · rw [slab_fresh _ _ _ hj,
      appended_fresh _ _ _ (by show ¬ (win0_5.index t (2 : Fin 4) * 4097 + 1 * (j 2).val < 4096); omega)]
    show V m c main_arg3 (((cfg0.win 3).blk t).view.emb (ix4 (j 0) (j 1) 0 (j 3))) = _
    refine congrArg (V m c main_arg3) (funext fun a => Fin.ext ?_)
    match a with
    | ⟨0, _⟩ => show win0_3.index t (0 : Fin 4) * 1 + 1 * (j 0).val = win0_5.index t (0 : Fin 4) * 1 + 1 * (j 0).val; omega
    | ⟨1, _⟩ => show win0_3.index t (1 : Fin 4) * 1 + 1 * (j 1).val = win0_5.index t (1 : Fin 4) * 1 + 1 * (j 1).val; omega
    | ⟨2, _⟩ => show win0_3.index t (2 : Fin 4) * 1 + 1 * 0 = 0; omega
    | ⟨3, _⟩ => show win0_3.index t (3 : Fin 4) * 128 + 1 * (j 3).val = win0_5.index t (3 : Fin 4) * 128 + 1 * (j 3).val; omega

/-- An index of the output array is in point `t`'s block iff each coordinate is in the block's range on its axis. -/
theorem mem_blk5 (t : Fin cfg0.N) (i : S8x32x4097x128.Idx) :
    i ∈ ((cfg0.win 5).blk t).view.set
      ↔ ∀ a : Fin 4, win0_5.index t a * S1x1x4097x128.size a ≤ (i a).val
          ∧ (i a).val < win0_5.index t a * S1x1x4097x128.size a + S1x1x4097x128.size a := by
  show i ∈ ((View.whole main_v0_1).slice (win0_5.rect t)).set ↔ _
  rw [View.set_slice_whole, Rect.mem_set_unit]
  exact Iff.rfl

/-- Every index of the output array lies in the block of the grid point of its (batch, head) pair. -/
theorem cover5 (i : S8x32x4097x128.Idx) :
    ∃ t : Fin cfg0.N, (cfg0.win 5).flush t = true ∧ i ∈ ((cfg0.win 5).blk t).view.set := by
  have hi0 : (i 0).val < 8 := (i 0).isLt
  have hi1 : (i 1).val < 32 := (i 1).isLt
  have hi2 : (i 2).val < 4097 := (i 2).isLt
  have hi3 : (i 3).val < 128 := (i 3).isLt
  obtain ⟨t, ht⟩ := idx_onto5 ⟨(i 0).val, hi0⟩ ⟨(i 1).val, hi1⟩
  have q0 : win0_5.index t (0 : Fin 4) = (i 0).val := congrFun ht 0
  have q1 : win0_5.index t (1 : Fin 4) = (i 1).val := congrFun ht 1
  have q2 : win0_5.index t (2 : Fin 4) = 0 := congrFun ht 2
  have q3 : win0_5.index t (3 : Fin 4) = 0 := congrFun ht 3
  refine ⟨t, flush0_5 t, ?_⟩
  rw [mem_blk5]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 1 ≤ (i 1).val ∧ (i 1).val < win0_5.index t (1 : Fin 4) * 1 + 1; omega
  | ⟨2, _⟩ => show win0_5.index t (2 : Fin 4) * 4097 ≤ (i 2).val ∧ (i 2).val < win0_5.index t (2 : Fin 4) * 4097 + 4097; omega
  | ⟨3, _⟩ => show win0_5.index t (3 : Fin 4) * 128 ≤ (i 3).val ∧ (i 3).val < win0_5.index t (3 : Fin 4) * 128 + 128; omega

/-- After the run the values output is the values cache with the fresh row appended. -/
theorem final5 (c : Dev nD) :
    (dats m 0 c).arrAt 5 cfg0.N = appended (α := Elt F .f32) (V m c main_arg1) (V m c main_arg3) :=
  (dats m 0 c).arrAt_eq_of_cover 5 _ (fun t _ => flushed5_eq m c t) cover5

/-! ## The run -/

/-- Every weakly fair execution of the kernel terminates with the key output at the key cache with the fresh key row
    appended, the value output at the value cache with the fresh value row appended, and the arguments unchanged. -/
theorem run : θ_run defs (onTc (τ := τ) (main (F := F))) ⟨m, fun _ => 0, ρ⟩ fun r => ∀ c : Dev nD,
      r.2.mem ((c : Thread nD τ).loc main_v0_0)
          = appended (α := Elt F .f32) (m ((c : Thread nD τ).loc main_arg0)) (m ((c : Thread nD τ).loc main_arg2))
      ∧ r.2.mem ((c : Thread nD τ).loc main_v0_1)
          = appended (α := Elt F .f32) (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2.1.trans (final5 m c), (h c).2.2⟩)
    (Value.run_blocks m ρ)

end Cert.KernelIdeal.Rows

end
-- ==== Proof.ReferenceRows.lean ====
/-
  The reference's two results are the caches with the fresh rows appended.

  The reference is two concatenations along the row axis: keys = cache keys ++ fresh key row, values = cache values ++
  fresh value row. Its generated run states each result as that concatenation of the launch contents of the
  arguments; by `Appended.concatenate_eq` each is the appended array, index by index.
-/
import proofs.«116161_j45294725104260_1_alg».proof.Proof.Gen.ReferenceIdeal.Run
import proofs.«116161_j45294725104260_1_alg».proof.Proof.Appended

noncomputable section

namespace Cert.ReferenceIdeal.Rows

open Cert.ReferenceIdeal Cert.ReferenceIdeal.Gen Idealize.ShloMosaic Idealize.ShloMosaic.TcCoe Idealize.SL.Sem
open Cert.Appended (appended)

variable {F : FTy → Type} [FloatOps F]

/-- Every weakly fair execution of the reference terminates with the keys at the key cache with the fresh key row
    appended, the values at the value cache with the fresh value row appended, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v0)
          = appended (α := Elt F .f32) (m ((c.tc : Thread nD τ).loc main_arg0)) (m ((c.tc : Thread nD τ).loc main_arg2))
      ∧ r.2.mem ((c.tc : Thread nD τ).loc main_v1)
          = appended (α := Elt F .f32) (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨(h c).1.trans (Cert.Appended.concatenate_eq _ _ _),
       (h c).2.1.trans (Cert.Appended.concatenate_eq _ _ _),
       (h c).2.2⟩)
    (Cert.ReferenceIdeal.Value.run (F := F) m ρ)

end Cert.ReferenceIdeal.Rows

end
-- ==== Proof.lean ====
/-
  Appending one row to a key cache and to a value cache: a copy kernel against two concatenations.

  The kernel runs over a grid of (batch, head) pairs and writes, per pair, the 4096 cached rows followed by the one
  fresh row into a 4097-row output block; the reference concatenates each cache with its fresh rows along the row
  axis. Nothing is computed on the values, so the two agree over any element type and the finiteness of the inputs is
  never used: both programs end with the keys at `appended key_cache key_states` and the values at
  `appended value_cache value_states` (Proof/Appended.lean), the kernel by reading each output block as the slab of
  its input blocks and covering the array with the 256 blocks (Proof/KernelRows.lean), the reference by reading a
  two-piece concatenation at an index (Proof/ReferenceRows.lean).

  The three frames are the runs with the results dropped; the kernel's idealization rewrote no operation, so
  `preserves` is trivial.
-/
import proofs.«116161_j45294725104260_1_alg».proof.Defs
import proofs.«116161_j45294725104260_1_alg».proof.Proof.Gen.Kernel
import proofs.«116161_j45294725104260_1_alg».proof.Proof.Gen.Kernel.Frame
import proofs.«116161_j45294725104260_1_alg».proof.Proof.Gen.KernelIdeal
import proofs.«116161_j45294725104260_1_alg».proof.Proof.Gen.KernelIdeal.Frame
import proofs.«116161_j45294725104260_1_alg».proof.Proof.Gen.ReferenceIdeal
import proofs.«116161_j45294725104260_1_alg».proof.Proof.Gen.Pre_finite_inputs
import proofs.«116161_j45294725104260_1_alg».proof.Proof.KernelRows
import proofs.«116161_j45294725104260_1_alg».proof.Proof.ReferenceRows
import Idealize.ShloMosaic.Adequacy
import Idealize.ShloMosaic.Init

noncomputable section

namespace Cert.Proof

open Idealize.ShloMosaic Idealize.ShloMosaic.TcCoe Idealize.SL.Sem

section
variable [Cert.Kernel.Facts] [Cert.KernelIdeal.Facts] [Cert.ReferenceIdeal.Facts] [Cert.Pre_finite_inputs.Facts]

/-- The kernel as printed runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's frame is its run with the two results dropped. -/
theorem frame_referenceIdeal : Cert.frame_ReferenceIdeal := fun m ρ _ =>
  (θ_run Cert.ReferenceIdeal.defs _ _).mono (fun _ h c => (h c).2.2) (Cert.ReferenceIdeal.Rows.run (F := Ideal) m ρ)

/-- From memories that agree on the four arguments, the kernel and the reference both end with the keys at the key
    cache with the fresh key row appended and the values at the value cache with the fresh value row appended. -/
theorem algebraic : Cert.algebraic_KernelIdeal_ReferenceIdeal := by
  intro m ρ m' ρ' _ hagree
  refine ⟨_, _, Cert.KernelIdeal.Rows.run (F := Ideal) m ρ, ?_⟩
  refine (θ_run Cert.ReferenceIdeal.defs _ _).mono (fun _ h c => ⟨(h c).1.trans ?_, (h c).2.1.trans ?_, (h c).2.2⟩)
    (Cert.ReferenceIdeal.Rows.run (F := Ideal) m' ρ')
  · rw [(hagree c).1, (hagree c).2.2.1]
  · rw [(hagree c).2.1, (hagree c).2.2.2]

end

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
